-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S256x4096, .i32⟩
  | .local _ .vmem, ⟨1, _⟩ => ⟨S256x4096, .i32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .f32 = 32 ∨ (Rect.block (s := S8192x4096) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.K.R0.lean ====
/-
  The first kernel region (the weight kernel), at the buffer contents `V` the region is entered with.
  Per grid point the body loads the integer block and the float block, and stores into the output block
  the pointwise value  round_bf16 (float (wb) + tag);  nothing is kept between points.
  Stated here: each window's block at a point, what the one store leaves in the output's staging buffer,
  the body's triple, the proof data of the pipeline, and the body obligation at every point.
-/
import proofs.«156597_j90048284328682_1_alg».proof.Proof.Gen.Kernel.Launch
import proofs.«156597_j90048284328682_1_alg».proof.Proof.Gen.Kernel.Skeleton
import proofs.«156597_j90048284328682_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 256 × 4096 block. -/
abbrev r0 : Rect S256x4096 := Rect.unit (s := S256x4096) ![0, 0] S256x4096.size inb_S256x4096_S256x4096_0_0

/-- What the body leaves in the output's staging buffer, from the two input blocks. -/
def out0_2 (x0 : Vec F S256x4096 .i32) (x1 : Vec F S256x4096 .f32) : Vec F S256x4096 .bf16 :=
  View.canon [⟨r0, k0_pay1 (View.ld x0 r0) (View.ld x1 r0)⟩]

/-- The one store covers the buffer. -/
theorem cover0_2 (p0 : Vec F S256x4096 .bf16) (y : S256x4096.Idx) :
    ∃ pc ∈ ([⟨r0, p0⟩] : List (View.Piece (Elt F) S256x4096 .bf16)), y ∈ pc.1.set :=
  View.cover_of_tiled [⟨r0, p0⟩] S256x4096.size (by rfl) y

set_option maxHeartbeats 1000000 in
/-- The body's triple on whole staging memrefs. -/
theorem sound_kernel0 (c : Dev nD) (E : Set ℕ) (i : grid0.Coords) (arg1 : Memref sig .tc .vmem S256x4096 .i32) (harg1 : arg1.IsWhole)
    (arg2 : Memref sig .tc .vmem S256x4096 .f32) (harg2 : arg2.IsWhole) (arg3 : Memref sig .tc .vmem S256x4096 .bf16) (harg3 : arg3.IsWhole)
    (x0 : Vec F S256x4096 .i32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__weight_kernel i arg1 harg1 arg2 harg2 arg3 harg3) K := by
  simp only [cc0__weight_kernel_eq_skeleton]; unfold cc0__weight_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Defs.lean ====
/-
  The second kernel region (the blocked product), at the buffer contents `V` the region is entered with: what
  its two case runs share. The grid is 8 × 4 × 2 with the contraction axis innermost, so a point `t` is the
  pair of an output block and a half `t mod 2` of the contraction: at an even point the accumulator is
  reset and the first half's products are added; at an odd point the second half's products are added and
  the accumulator plus the bias row is stored into the output block, which is written back there.
-/
import proofs.«156597_j90048284328682_1_alg».proof.Proof.Gen.Kernel.Launch
import proofs.«156597_j90048284328682_1_alg».proof.Proof.Gen.Kernel.Skeleton
import proofs.«156597_j90048284328682_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "this is the first half of the contraction" (the reset's condition), from the grid coordinates. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- "this is the last half of the contraction" (the epilogue's condition). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the output block is not stored into, -/
theorem idleAt1_3_A : ∀ t : Fin cfg1.N, cond1_0 (grid1.coords t) → ¬cond1_1 (grid1.coords t) → cfg1.idle 3 (grid1.coords t) = true := by decide +kernel
/-- and is not written back. -/
theorem noFlush1_3_A : ∀ t : Fin cfg1.N, cond1_0 (grid1.coords t) → ¬cond1_1 (grid1.coords t) → (cfg1.win 3).flush t = false := by decide +kernel
/-- At an odd point it is stored into. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view

/-- The core's scoped buffers outside this region's staging: the first kernel's six staging buffers, each whole at
    some contents, beside the accumulator's assertion `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's plain invariant, with the accumulator as a memref owned at some contents. -/
theorem PhiA1_eq (c : Dev nD) :
    (Pipeline.ΦA spec1 c : sProp 𝕄)
      = iprop(scoped1 (F := F) c (iprop(∃ d, owns (c : Thread nD τ) scM1 fullShare d)) ∗ (∃ r, prngReg c r)) := by
  unfold Pipeline.ΦA scoped1; rw [scopedRest1_eq]; simp only [scM1, owns_whole]; try rfl

end Cert.Kernel.Fr

end
-- ==== Proof.K.R1RunA.lean ====
/-
  The body of the blocked product at an EVEN point (first half of the contraction): it resets the accumulator to
  zero, adds the first half's products into it, and leaves the output block untouched.
-/
import proofs.«156597_j90048284328682_1_alg».proof.Proof.Gen.Kernel.Launch
import proofs.«156597_j90048284328682_1_alg».proof.Proof.Gen.Kernel.Skeleton
import proofs.«156597_j90048284328682_1_alg».proof.Proof.Gen.Kernel.Points
import proofs.«156597_j90048284328682_1_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator at an even point, with the proof that the body runs there. -/
noncomputable def kernelRun1_A (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .f32) (x1 : Vec F S1024x2048 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1RunB.lean ====
/-
  The body of the blocked product at an ODD point (last half of the contraction): it adds the second half's products
  into the accumulator it finds, then stores the accumulator plus the bias row into the output block.
-/
import proofs.«156597_j90048284328682_1_alg».proof.Proof.Gen.Kernel.Launch
import proofs.«156597_j90048284328682_1_alg».proof.Proof.Gen.Kernel.Skeleton
import proofs.«156597_j90048284328682_1_alg».proof.Proof.Gen.Kernel.Points
import proofs.«156597_j90048284328682_1_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator at an odd point, over the
    accumulator's contents `xs0` as the point before left them, with the proof that the body runs there. -/
noncomputable def kernelRun1_B (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R1.lean ====
/-
  The second kernel region (the blocked product): what the accumulator and the output block hold after each grid
  point, the pipeline's proof data, and the body obligation at every point.
  After an even point the accumulator holds  0 + (first half's products);  after the odd point that follows it holds
  that plus the second half's products, and the output block holds the accumulator plus the bias row.
-/
import proofs.«156597_j90048284328682_1_alg».proof.Proof.Gen.Kernel.Launch
import proofs.«156597_j90048284328682_1_alg».proof.Proof.Gen.Kernel.Skeleton
import proofs.«156597_j90048284328682_1_alg».proof.Proof.Gen.Kernel.Points
import proofs.«156597_j90048284328682_1_alg».proof.Proof.K.R1RunA
import proofs.«156597_j90048284328682_1_alg».proof.Proof.K.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At an even point nothing is stored into the output block: a placeholder nothing consults. -/
def out1_A_3 (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x2048 .f32) (x1 : Vec F S1024x2048 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The even point's stores into the accumulator cover it. -/
theorem scover1_A (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x2048 .f32) (x1 : Vec F S1024x2048 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What an even point leaves in the accumulator. -/
def sout1_A (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x2048 .f32) (x1 : Vec F S1024x2048 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- The odd point's store into the output block covers it. -/
theorem cover1_B_3 (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What an odd point leaves in the output block. -/
def out1_B_3 (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The odd point's store into the accumulator covers it. -/
theorem scover1_B (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What an odd point leaves in the accumulator. -/
def sout1_B (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-! ## Point by point -/

/-- What the output block's staging buffer and the accumulator hold after the body at position `n`: at an even position
    the reset case on the point's blocks; at an odd position the epilogue case over what the even point before left in
    the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2)

/-- At an even point. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At an odd point, over what the point before left in the accumulator. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the plain one (the accumulator at anything);
    afterwards the accumulator at what the point before left in it. -/
def PhiS (c : Dev nD) : (n : ℕ) → n ≤ cfg1.N → sProp 𝕄
  | 0, _ => Pipeline.ΦA spec1 c
  | n + 1, hn => iprop(scoped1 (F := F) c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 (F := F) c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(scoped1 (F := F) c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      unfold scoped1
      iintro ⟨⟨⟨Hr1, Hr2, Hr3, Hr4, Hr5, Hr6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hr1 Hr2 Hr3 Hr4 Hr5 Hr6]
      · isplitl [HS0 Hr1 Hr2 Hr3 Hr4 Hr5 Hr6]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold scoped1
      iintro ⟨⟨⟨Hr1, Hr2, Hr3, Hr4, Hr5, Hr6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hr1 Hr2 Hr3 Hr4 Hr5 Hr6]
      · isplitl [HS0 Hr1 Hr2 Hr3 Hr4 Hr5 Hr6]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B; (try dsimp only)
    have hz : t.val ≠ 0 := by omega
    rw [PhiS_castSucc V c t, PhiS_pos V c _ _ hz]
    unfold scoped1
    iintro ⟨⟨⟨Hr1, Hr2, Hr3, Hr4, Hr5, Hr6, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg Hr1 Hr2 Hr3 Hr4 Hr5 Hr6]
    · isplitl [HS0 Hr1 Hr2 Hr3 Hr4 Hr5 Hr6]
      · isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        unfold owns; iexists _; isplitr
        swap; · iexact HS0
        ipureintro; exact View.read_writes_of_cover _ _ _ _ _ (scover1_B c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold scoped1
  iintro ⟨⟨Hr1, Hr2, Hr3, Hr4, Hr5, Hr6, HS0⟩, Hg⟩
  isplitl [HS0 Hr1 Hr2 Hr3 Hr4 Hr5 Hr6]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.K.Run.lean ====
/-
  The whole run of the program: the first kernel region, the reshape of the bias on the host, the second kernel
  region. The contents of every unscoped buffer at each boundary are named (`W0` at launch, `W1` after the first
  region, `W2` after the reshape, `W3` at the end), each region's arrays at what its write-backs leave and every
  other buffer as it was; the run ends with every unscoped buffer at `W3`, from which both the frame (the arguments
  end as launched) and the result array's contents are read.
-/
import proofs.«156597_j90048284328682_1_alg».proof.Proof.Gen.Kernel.Launch
import proofs.«156597_j90048284328682_1_alg».proof.Proof.Gen.Kernel.Skeleton
import proofs.«156597_j90048284328682_1_alg».proof.Proof.Gen.Kernel.Points
import proofs.«156597_j90048284328682_1_alg».proof.Proof.K.R0
import proofs.«156597_j90048284328682_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the reshape. -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-- The reshape writes only its result. -/
theorem W2_of_ne (c : Dev nD) (b : Ref sig .tc) (hb : (Proc.devRef .tc b : DevRef τ sig) ≠ Proc.devRef .tc main_v1) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact hb))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Vr2 m) c).arrAt_in 0 rfl _).trans (A_eq1 (Vr2 m) c 0))
    _ = W1 m c (Proc.devRef .tc main_arg0) := W2_of_ne m c main_arg0 (StableHlo.devRef_ne_of_ne (by decide))
    _ = W0 m c (Proc.devRef .tc main_arg0) := W1_of_ne m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (StableHlo.devRef_ne_of_ne (by decide))
    _ = W0 m c (Proc.devRef .tc main_arg1) := (W1_arr m c 0).trans (((dat0 (Vr0 m) c).arrAt_in 0 rfl _).trans (A_eq0 (Vr0 m) c 0))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (StableHlo.devRef_ne_of_ne (by decide))
    _ = W0 m c (Proc.devRef .tc main_arg2) := (W1_arr m c 1).trans (((dat0 (Vr0 m) c).arrAt_in 1 rfl _).trans (A_eq0 (Vr0 m) c 1))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (StableHlo.devRef_ne_of_ne (by decide))
    _ = W0 m c (Proc.devRef .tc main_arg3) := W1_of_ne m c main_arg3 (by decide)
    _ = m ((c : Thread nD τ).loc main_arg3) := rfl

/-- The result array ends at what the second region's write-backs leave. -/
theorem W3_main_v2 (c : Dev nD) : W3 m c (Proc.devRef .tc main_v2) = (dat1 (Vr2 m) c).arrAt 3 cfg1.N := W3_arr m c 3

/-- What the second region is entered with: the first operand as launched, -/
theorem Vr2_main_arg0 (c : Dev nD) : Vr2 m c main_arg0 = m ((c : Thread nD τ).loc main_arg0) :=
  (W2_of_ne m c main_arg0 (StableHlo.devRef_ne_of_ne (by decide))).trans ((W1_of_ne m c main_arg0 (by decide)).trans rfl)
/-- the weight array as the first region left it. -/
theorem Vr2_main_v0 (c : Dev nD) : Vr2 m c main_v0 = (dat0 (Vr0 m) c).arrAt 2 cfg0.N :=
  (W2_of_ne m c main_v0 (StableHlo.devRef_ne_of_ne (by decide))).trans (W1_arr m c 2)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (Vr2 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (Vr2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named: it ends at what the second region's write-backs leave, the arguments as launched. -/
theorem run_value : θ_run defs (onTc (τ := τ) (main (F := F))) ⟨m, fun _ => 0, ρ⟩ (fun r => ∀ c : Dev nD,
      r.2.mem ((c.tc : Thread nD τ).loc main_v2) = (dat1 (Vr2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Fr

end
-- ==== Proof.KI.R0.lean ====
/-
  The first kernel region (the weight kernel), at the buffer contents `V` the region is entered with.
  Per grid point the body loads the integer block and the float block, and stores into the output block
  the pointwise value  round_bf16 (float (wb) + tag);  nothing is kept between points.
  Stated here: each window's block at a point, what the one store leaves in the output's staging buffer,
  the body's triple, the proof data of the pipeline, and the body obligation at every point.
-/
import proofs.«156597_j90048284328682_1_alg».proof.Proof.Gen.KernelIdeal.Launch
import proofs.«156597_j90048284328682_1_alg».proof.Proof.Gen.KernelIdeal.Skeleton
import proofs.«156597_j90048284328682_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 256 × 4096 block. -/
abbrev r0 : Rect S256x4096 := Rect.unit (s := S256x4096) ![0, 0] S256x4096.size inb_S256x4096_S256x4096_0_0

/-- What the body leaves in the output's staging buffer, from the two input blocks. -/
def out0_2 (x0 : Vec F S256x4096 .i32) (x1 : Vec F S256x4096 .f32) : Vec F S256x4096 .bf16 :=
  View.canon [⟨r0, k0_pay1 (View.ld x0 r0) (View.ld x1 r0)⟩]

/-- The one store covers the buffer. -/
theorem cover0_2 (p0 : Vec F S256x4096 .bf16) (y : S256x4096.Idx) :
    ∃ pc ∈ ([⟨r0, p0⟩] : List (View.Piece (Elt F) S256x4096 .bf16)), y ∈ pc.1.set :=
  View.cover_of_tiled [⟨r0, p0⟩] S256x4096.size (by rfl) y

set_option maxHeartbeats 1000000 in
/-- The body's triple on whole staging memrefs. -/
theorem sound_kernel0 (c : Dev nD) (E : Set ℕ) (i : grid0.Coords) (arg1 : Memref sig .tc .vmem S256x4096 .i32) (harg1 : arg1.IsWhole)
    (arg2 : Memref sig .tc .vmem S256x4096 .f32) (harg2 : arg2.IsWhole) (arg3 : Memref sig .tc .vmem S256x4096 .bf16) (harg3 : arg3.IsWhole)
    (x0 : Vec F S256x4096 .i32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__weight_kernel i arg1 harg1 arg2 harg2 arg3 harg3) K := by
  simp only [cc0__weight_kernel_eq_skeleton]; unfold cc0__weight_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Defs.lean ====
/-
  The second kernel region (the blocked product), at the buffer contents `V` the region is entered with: what
  its two case runs share. The grid is 8 × 4 × 2 with the contraction axis innermost, so a point `t` is the
  pair of an output block and a half `t mod 2` of the contraction: at an even point the accumulator is
  reset and the first half's products are added; at an odd point the second half's products are added and
  the accumulator plus the bias row is stored into the output block, which is written back there.
-/
import proofs.«156597_j90048284328682_1_alg».proof.Proof.Gen.KernelIdeal.Launch
import proofs.«156597_j90048284328682_1_alg».proof.Proof.Gen.KernelIdeal.Skeleton
import proofs.«156597_j90048284328682_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "this is the first half of the contraction" (the reset's condition), from the grid coordinates. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- "this is the last half of the contraction" (the epilogue's condition). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the output block is not stored into, -/
theorem idleAt1_3_A : ∀ t : Fin cfg1.N, cond1_0 (grid1.coords t) → ¬cond1_1 (grid1.coords t) → cfg1.idle 3 (grid1.coords t) = true := by decide +kernel
/-- and is not written back. -/
theorem noFlush1_3_A : ∀ t : Fin cfg1.N, cond1_0 (grid1.coords t) → ¬cond1_1 (grid1.coords t) → (cfg1.win 3).flush t = false := by decide +kernel
/-- At an odd point it is stored into. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view

/-- The core's scoped buffers outside this region's staging: the first kernel's six staging buffers, each whole at
    some contents, beside the accumulator's assertion `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's plain invariant, with the accumulator as a memref owned at some contents. -/
theorem PhiA1_eq (c : Dev nD) :
    (Pipeline.ΦA spec1 c : sProp 𝕄)
      = iprop(scoped1 (F := F) c (iprop(∃ d, owns (c : Thread nD τ) scM1 fullShare d)) ∗ (∃ r, prngReg c r)) := by
  unfold Pipeline.ΦA scoped1; rw [scopedRest1_eq]; simp only [scM1, owns_whole]; try rfl

end Cert.KernelIdeal.Fr

end
-- ==== Proof.KI.R1RunA.lean ====
/-
  The body of the blocked product at an EVEN point (first half of the contraction): it resets the accumulator to
  zero, adds the first half's products into it, and leaves the output block untouched.
-/
import proofs.«156597_j90048284328682_1_alg».proof.Proof.Gen.KernelIdeal.Launch
import proofs.«156597_j90048284328682_1_alg».proof.Proof.Gen.KernelIdeal.Skeleton
import proofs.«156597_j90048284328682_1_alg».proof.Proof.Gen.KernelIdeal.Points
import proofs.«156597_j90048284328682_1_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator at an even point, with the proof that the body runs there. -/
noncomputable def kernelRun1_A (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .f32) (x1 : Vec F S1024x2048 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunB.lean ====
/-
  The body of the blocked product at an ODD point (last half of the contraction): it adds the second half's products
  into the accumulator it finds, then stores the accumulator plus the bias row into the output block.
-/
import proofs.«156597_j90048284328682_1_alg».proof.Proof.Gen.KernelIdeal.Launch
import proofs.«156597_j90048284328682_1_alg».proof.Proof.Gen.KernelIdeal.Skeleton
import proofs.«156597_j90048284328682_1_alg».proof.Proof.Gen.KernelIdeal.Points
import proofs.«156597_j90048284328682_1_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the accumulator at an odd point, over the
    accumulator's contents `xs0` as the point before left them, with the proof that the body runs there. -/
noncomputable def kernelRun1_B (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R1.lean ====
/-
  The second kernel region (the blocked product): what the accumulator and the output block hold after each grid
  point, the pipeline's proof data, and the body obligation at every point.
  After an even point the accumulator holds  0 + (first half's products);  after the odd point that follows it holds
  that plus the second half's products, and the output block holds the accumulator plus the bias row.
-/
import proofs.«156597_j90048284328682_1_alg».proof.Proof.Gen.KernelIdeal.Launch
import proofs.«156597_j90048284328682_1_alg».proof.Proof.Gen.KernelIdeal.Skeleton
import proofs.«156597_j90048284328682_1_alg».proof.Proof.Gen.KernelIdeal.Points
import proofs.«156597_j90048284328682_1_alg».proof.Proof.KI.R1RunA
import proofs.«156597_j90048284328682_1_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At an even point nothing is stored into the output block: a placeholder nothing consults. -/
def out1_A_3 (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x2048 .f32) (x1 : Vec F S1024x2048 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The even point's stores into the accumulator cover it. -/
theorem scover1_A (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x2048 .f32) (x1 : Vec F S1024x2048 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What an even point leaves in the accumulator. -/
def sout1_A (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x2048 .f32) (x1 : Vec F S1024x2048 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- The odd point's store into the output block covers it. -/
theorem cover1_B_3 (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What an odd point leaves in the output block. -/
def out1_B_3 (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The odd point's store into the accumulator covers it. -/
theorem scover1_B (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What an odd point leaves in the accumulator. -/
def sout1_B (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x2048 .f32) (x1 : Vec F S1024x2048 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-! ## Point by point -/

/-- What the output block's staging buffer and the accumulator hold after the body at position `n`: at an even position
    the reset case on the point's blocks; at an odd position the epilogue case over what the even point before left in
    the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (outsAt1 c n (Nat.lt_of_succ_lt hn)).2)

/-- At an even point. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At an odd point, over what the point before left in the accumulator. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the plain one (the accumulator at anything);
    afterwards the accumulator at what the point before left in it. -/
def PhiS (c : Dev nD) : (n : ℕ) → n ≤ cfg1.N → sProp 𝕄
  | 0, _ => Pipeline.ΦA spec1 c
  | n + 1, hn => iprop(scoped1 (F := F) c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 (F := F) c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(scoped1 (F := F) c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      unfold scoped1
      iintro ⟨⟨⟨Hr1, Hr2, Hr3, Hr4, Hr5, Hr6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hr1 Hr2 Hr3 Hr4 Hr5 Hr6]
      · isplitl [HS0 Hr1 Hr2 Hr3 Hr4 Hr5 Hr6]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold scoped1
      iintro ⟨⟨⟨Hr1, Hr2, Hr3, Hr4, Hr5, Hr6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hr1 Hr2 Hr3 Hr4 Hr5 Hr6]
      · isplitl [HS0 Hr1 Hr2 Hr3 Hr4 Hr5 Hr6]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B; (try dsimp only)
    have hz : t.val ≠ 0 := by omega
    rw [PhiS_castSucc V c t, PhiS_pos V c _ _ hz]
    unfold scoped1
    iintro ⟨⟨⟨Hr1, Hr2, Hr3, Hr4, Hr5, Hr6, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg Hr1 Hr2 Hr3 Hr4 Hr5 Hr6]
    · isplitl [HS0 Hr1 Hr2 Hr3 Hr4 Hr5 Hr6]
      · isplitl [Hr1]; · iexact Hr1
        isplitl [Hr2]; · iexact Hr2
        isplitl [Hr3]; · iexact Hr3
        isplitl [Hr4]; · iexact Hr4
        isplitl [Hr5]; · iexact Hr5
        isplitl [Hr6]; · iexact Hr6
        unfold owns; iexists _; isplitr
        swap; · iexact HS0
        ipureintro; exact View.read_writes_of_cover _ _ _ _ _ (scover1_B c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold scoped1
  iintro ⟨⟨Hr1, Hr2, Hr3, Hr4, Hr5, Hr6, HS0⟩, Hg⟩
  isplitl [HS0 Hr1 Hr2 Hr3 Hr4 Hr5 Hr6]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.KI.Run.lean ====
/-
  The whole run of the program: the first kernel region, the reshape of the bias on the host, the second kernel
  region. The contents of every unscoped buffer at each boundary are named (`W0` at launch, `W1` after the first
  region, `W2` after the reshape, `W3` at the end), each region's arrays at what its write-backs leave and every
  other buffer as it was; the run ends with every unscoped buffer at `W3`, from which both the frame (the arguments
  end as launched) and the result array's contents are read.
-/
import proofs.«156597_j90048284328682_1_alg».proof.Proof.Gen.KernelIdeal.Launch
import proofs.«156597_j90048284328682_1_alg».proof.Proof.Gen.KernelIdeal.Skeleton
import proofs.«156597_j90048284328682_1_alg».proof.Proof.Gen.KernelIdeal.Points
import proofs.«156597_j90048284328682_1_alg».proof.Proof.KI.R0
import proofs.«156597_j90048284328682_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the reshape. -/
abbrev W2 : Dev nD → Valuation τ sig (Elt F) := fun c => StableHlo.after hostOps1 (W1 m c)
abbrev Vr2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-- The reshape writes only its result. -/
theorem W2_of_ne (c : Dev nD) (b : Ref sig .tc) (hb : (Proc.devRef .tc b : DevRef τ sig) ≠ Proc.devRef .tc main_v1) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact hb))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Vr2 m) c).arrAt_in 0 rfl _).trans (A_eq1 (Vr2 m) c 0))
    _ = W1 m c (Proc.devRef .tc main_arg0) := W2_of_ne m c main_arg0 (StableHlo.devRef_ne_of_ne (by decide))
    _ = W0 m c (Proc.devRef .tc main_arg0) := W1_of_ne m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (StableHlo.devRef_ne_of_ne (by decide))
    _ = W0 m c (Proc.devRef .tc main_arg1) := (W1_arr m c 0).trans (((dat0 (Vr0 m) c).arrAt_in 0 rfl _).trans (A_eq0 (Vr0 m) c 0))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (StableHlo.devRef_ne_of_ne (by decide))
    _ = W0 m c (Proc.devRef .tc main_arg2) := (W1_arr m c 1).trans (((dat0 (Vr0 m) c).arrAt_in 1 rfl _).trans (A_eq0 (Vr0 m) c 1))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (StableHlo.devRef_ne_of_ne (by decide))
    _ = W0 m c (Proc.devRef .tc main_arg3) := W1_of_ne m c main_arg3 (by decide)
    _ = m ((c : Thread nD τ).loc main_arg3) := rfl

/-- The result array ends at what the second region's write-backs leave. -/
theorem W3_main_v2 (c : Dev nD) : W3 m c (Proc.devRef .tc main_v2) = (dat1 (Vr2 m) c).arrAt 3 cfg1.N := W3_arr m c 3

/-- What the second region is entered with: the first operand as launched, -/
theorem Vr2_main_arg0 (c : Dev nD) : Vr2 m c main_arg0 = m ((c : Thread nD τ).loc main_arg0) :=
  (W2_of_ne m c main_arg0 (StableHlo.devRef_ne_of_ne (by decide))).trans ((W1_of_ne m c main_arg0 (by decide)).trans rfl)
/-- the weight array as the first region left it. -/
theorem Vr2_main_v0 (c : Dev nD) : Vr2 m c main_v0 = (dat0 (Vr0 m) c).arrAt 2 cfg0.N :=
  (W2_of_ne m c main_v0 (StableHlo.devRef_ne_of_ne (by decide))).trans (W1_arr m c 2)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (Vr2 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (Vr2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named: it ends at what the second region's write-backs leave, the arguments as launched. -/
theorem run_value : θ_run defs (onTc (τ := τ) (main (F := F))) ⟨m, fun _ => 0, ρ⟩ (fun r => ∀ c : Dev nD,
      r.2.mem ((c.tc : Thread nD τ).loc main_v2) = (dat1 (Vr2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Fr

end
-- ==== Proof.Spec.lean ====
/-
  The specification both programs meet, over the extended reals.
  With  W(o, i) = float (wb (o, i)) + tag (o, i)  the effective weight,
  the result at row n and column o is   (∑ i < 4096, x (n, i) · W (o, i)) + bias (o).
  The kernel reaches it as  ((0 + ∑ over the first 2048 columns) + ∑ over the last 2048 columns) + bias,
  which is the same extended real: addition on the extended reals is commutative and associative, and a sum
  over 4096 = 2048 + 2048 indices splits into its two halves.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SX : Shape := ⟨2, ![8192, 4096]⟩
abbrev SW : Shape := ⟨2, ![4096, 4096]⟩
abbrev SB : Shape := ⟨1, ![4096]⟩
abbrev SB2 : Shape := ⟨2, ![1, 4096]⟩

/-- The effective weight at output feature `o` and input feature `i`. -/
def weff (wb : IVec SW 32) (tag : FVec Ideal SW .f32) (o i : Fin 4096) : EReal :=
  FloatOps.sitofp (F := Ideal) .f32 (wb (ix2 o i)) + tag (ix2 o i)

/-- The result at row `n`, column `o`. -/
def res (x : FVec Ideal SX .f32) (wb : IVec SW 32) (tag : FVec Ideal SW .f32) (b : FVec Ideal SB .f32)
    (n : Fin 8192) (o : Fin 4096) : EReal :=
  (∑ i : Fin 4096, x (ix2 n i) * weff wb tag o i) + b (ix1 o)

/-- The whole result array. -/
def G (x : FVec Ideal SX .f32) (wb : IVec SW 32) (tag : FVec Ideal SW .f32) (b : FVec Ideal SB .f32) : FVec Ideal SX .f32 :=
  fun j => res x wb tag b (j 0) (j 1)

/-- Column `k` of the first half, and of the second half, of the 4096 input features. -/
def lo (k : Fin 2048) : Fin 4096 := ⟨k.val, by omega⟩
def hi (k : Fin 2048) : Fin 4096 := ⟨2048 + k.val, by omega⟩

/-- The result as the kernel accumulates it, from a weight array `w` and a bias row `b1` of shape 1 × 4096:
    the zero accumulator plus the first half's products, plus the second half's, plus the bias. -/
def resK (x : FVec Ideal SX .f32) (w : FVec Ideal SW .bf16) (b1 : FVec Ideal SB2 .f32) (n : Fin 8192) (o : Fin 4096) : EReal :=
  (((0 : EReal) + ∑ k : Fin 2048, x (ix2 n (lo k)) * w (ix2 o (lo k)))
      + ∑ k : Fin 2048, x (ix2 n (hi k)) * w (ix2 o (hi k)))
    + b1 (ix2 (0 : Fin 1) o)

/-- The array the kernel leaves, entry by entry. -/
def GK (x : FVec Ideal SX .f32) (w : FVec Ideal SW .bf16) (b1 : FVec Ideal SB2 .f32) : FVec Ideal SX .f32 :=
  fun j => resK x w b1 (j 0) (j 1)

/-- The weight array the first kernel leaves (rounding to bf16 is the identity on the extended reals). -/
def WK (wb : IVec SW 32) (tag : FVec Ideal SW .f32) : FVec Ideal SW .bf16 :=
  fun j => weff wb tag (j 0) (j 1)

end Cert.Spec

end
-- ==== Proof.Algebra.lean ====
/-
  The kernel's accumulation order gives the specified result.
  The kernel adds, to a zero accumulator, the products over the first 2048 input features, then those over
  the last 2048, then the bias read from a 1 × 4096 row. On the extended reals  0 + a = a,  and a sum over
  4096 = 2048 + 2048 indices is the sum over the first half plus the sum over the second half; the weight
  array the first kernel leaves is the effective weight entry by entry. So the two results agree, with no
  finiteness assumption: only the commutative-monoid laws of addition are used.
-/
import proofs.«156597_j90048284328682_1_alg».proof.Proof.Spec
import Mathlib.Algebra.BigOperators.Fin

noncomputable section

open scoped BigOperators

namespace Cert.Spec

open Idealize.ShloMosaic Idealize.ShloMosaic.ValueIdx

/-- A sum over the 4096 input features is the sum over the first 2048 plus the sum over the last 2048:
    lo k is the index k and hi k the index 2048 + k, the two embeddings of Fin 2048 into Fin (2048 + 2048). -/
theorem sum_halves {M : Type*} [AddCommMonoid M] (f : Fin 4096 → M) :
    ∑ i : Fin 4096, f i = (∑ k : Fin 2048, f (lo k)) + ∑ k : Fin 2048, f (hi k) := by
  have h := Fin.sum_univ_add (a := 2048) (b := 2048) (fun i : Fin (2048 + 2048) => f i)
  refine h.trans ?_
  congr 1

/-- Entry by entry, the kernel's accumulation is the specified result, when the bias row holds the bias. -/
theorem resK_eq (x : FVec Ideal SX .f32) (wb : IVec SW 32) (tag : FVec Ideal SW .f32) (b1 : FVec Ideal SB2 .f32) (b : FVec Ideal SB .f32)
    (hb : ∀ o : Fin 4096, b1 (ix2 (0 : Fin 1) o) = b (ix1 o)) (n : Fin 8192) (o : Fin 4096) :
    resK x (WK wb tag) b1 n o = res x wb tag b n o := by
  unfold resK res
  rw [zero_add, hb o, sum_halves (fun i => x (ix2 n i) * weff wb tag o i)]
  rfl

/-- The array the kernel leaves is the specified array. -/
theorem GK_eq (x : FVec Ideal SX .f32) (wb : IVec SW 32) (tag : FVec Ideal SW .f32) (b1 : FVec Ideal SB2 .f32) (b : FVec Ideal SB .f32)
    (hb : ∀ o : Fin 4096, b1 (ix2 (0 : Fin 1) o) = b (ix1 o)) : GK x (WK wb tag) b1 = G x wb tag b := by
  funext j
  exact resK_eq x wb tag b1 b hb (j 0) (j 1)

end Cert.Spec

end
-- ==== Proof.KI.Val0.lean ====
/-
  The value of the first kernel region over the extended reals.
  The region runs 16 points; point t loads rows 256·t … 256·t + 255 (all 4096 columns) of the integer array
  and of the float array, and writes back, to the same rows of the output array, the pointwise value
    float (wb (o, i)) + tag (o, i)
  (rounding to bf16 is the identity on the extended reals). All three windows have block index (t, 0), so the
  element (p, q) of a point's block sits at (t · 256 + p, 0 · 4096 + q) in each of the three arrays. Row r of
  the output is therefore written by point r / 256, the 16 blocks cover the 4096 rows, and after the run the
  output array holds the effective weight at every index.
-/
import proofs.«156597_j90048284328682_1_alg».proof.Proof.KI.R0
import proofs.«156597_j90048284328682_1_alg».proof.Proof.Spec
import Idealize.ShloMosaic.Lib.Pipeline.Value
import Idealize.ShloMosaic.Lib.ValueIdx

set_option maxRecDepth 16384

noncomputable section

namespace Cert.KernelIdeal.ValW

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's one rectangle starts at the origin. -/
theorem origin_eq : (![0, 0] : Fin 2 → Nat) = fun _ => 0 := funext fun a => by fin_cases a <;> rfl

/-- The body's payload at an element of the block: the integer converted, plus the float. -/
theorem pay_apply (x0 : Vec Ideal S256x4096 .i32) (x1 : Vec Ideal S256x4096 .f32) (y : S256x4096.Idx) :
    k0_pay1 x0 x1 y = FloatOps.sitofp (F := Ideal) .f32 (x0 y) + x1 y := rfl

/-- The printed index maps, decided over the 16 points: the two input windows have the output window's block
    index, which is (t, 0). -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- The effective-weight array read at an index. -/
theorem WK_apply (wb : IVec Cert.Spec.SW 32) (tag : FVec Ideal Cert.Spec.SW .f32) (i : Cert.Spec.SW.Idx) :
    Cert.Spec.WK wb tag i = FloatOps.sitofp (F := Ideal) .f32 (wb i) + tag i := by
  obtain ⟨p, q, rfl⟩ : ∃ (p : Fin 4096) (q : Fin 4096), i = ix2 p q := ⟨i 0, i 1, eq_ix2 i⟩
  rfl

/-- What point t writes back is block t of the effective weight: element (p, q) of the block is read from the two
    input arrays at the place (t · 256 + p, q) where the output's block puts it. -/
theorem flushed_eq (c : Dev nD) (t : Fin cfg0.N) :
    (dat0 V c).flushed 2 t = ((cfg0.win 2).blk t).view.read (Elt Ideal) (Cert.Spec.WK (V c main_arg1) (V c main_arg2)) := by
  show (cfg0.win 2).cut (grid0.coords t) ((dat0 V c).after 2 t) = _
  rw [after0_2]
  unfold out0_2
  rw [View.canon_unit_zero origin_eq]
  simp only [View.ld_unit_zero (S := S256x4096) origin_eq]
  obtain ⟨e0, e1, e2, e3, e4, e5⟩ := index_facts t
  funext j
  show FloatOps.sitofp (F := Ideal) .f32 (V c main_arg1 (((cfg0.win 0).blk t).view.emb j)) + V c main_arg2 (((cfg0.win 1).blk t).view.emb j)
    = Cert.Spec.WK (V c main_arg1) (V c main_arg2) (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]
  exact (WK_apply _ _ _).symm

/-- An index of the output array is in point t's block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every index (r, q) of the output array is in the block of the point r / 256, which writes its block back:
    256 · (r / 256) ≤ r < 256 · (r / 256) + 256, and the block spans all 4096 columns. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : grid0.N = 16 := N_0
  obtain ⟨t, ht⟩ : ∃ t : Fin cfg0.N, t.val = (i 0).val / 256 :=
    ⟨⟨(i 0).val / 256, by show (i 0).val / 256 < grid0.N; omega⟩, rfl⟩
  obtain ⟨-, -, -, -, q0, q1⟩ := index_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the 16 write-backs the output array holds the effective weight at every index. -/
theorem arr0_final (c : Dev nD) :
    (dat0 V c).arrAt 2 cfg0.N = Cert.Spec.WK (V c main_arg1) (V c main_arg2) :=
  (dat0 V c).arrAt_eq_of_cover 2 (Cert.Spec.WK (V c main_arg1) (V c main_arg2)) (fun t _ => flushed_eq V c t) covered

end Cert.KernelIdeal.ValW

end
-- ==== Proof.KI.Val1Pieces.lean ====
/-
  The second kernel region (the blocked product with a bias epilogue): what its body leaves in the accumulator and
  in the output block, read entry by entry over the extended reals.

  A grid point carries a 1024 × 2048 block `x0` of the left operand, a 1024 × 2048 block `x1` of the right operand
  (both indexed row, contraction position) and a 1 × 1024 row `x2` of the bias. Entry `(p, q)` of the block product
  is the sum over the 2048 contraction positions `k` of `x0 (p, k) * x1 (q, k)`: the right operand is contracted along
  its own second axis, so no transposition appears.
    * At an even point the accumulator is first set to zero and then updated, so it holds `0 + ∑ k`.
    * At an odd point the accumulator `xs0` found there is updated, so it holds `xs0 (p, q) + ∑ k`, and the output
      block receives that plus the bias entry `x2 (0, q)` of the column.
  The change of float format on the left operand and the casts of a vector to its own shape are the identity on the
  extended reals; the row broadcast of the bias reads its one row.
-/
import proofs.«156597_j90048284328682_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.ValueIdx

variable {F : FTy → Type} [FloatOps F]

/-! ## What each case leaves, as one payload of the point's blocks (any float family) -/

/-- The zero offsets of a whole-block rectangle, spelt as a constant function. -/
theorem blk1_origin : (![0, 0] : Fin 2 → Nat) = fun _ => 0 :=
  funext fun a => match a with
    | ⟨0, _⟩ => rfl
    | ⟨1, _⟩ => rfl

/-- At an even point the accumulator is left at the update of the zero splat by the point's two blocks. -/
theorem sout1_A_eq (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .f32) (x1 : Vec F S1024x2048 .bf16) (x2 : Vec F S1x1024 .f32) :
    sout1_A c i arg3 harg3 arg4 harg4 arg5 harg5 arg6 harg6 arg7 harg7 hc0 hc1 x0 x1 x2 = k1_pay2 x0 (k1_pay1 (F := F)) x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x1024) blk1_origin]
  simp only [View.readAt_eq_ld, harg3.read_unread, harg4.read_unread, View.ld_unit_zero (S := S1024x2048) blk1_origin,
    View.readCov_unit_zero (S := S1024x1024) _ blk1_origin]

/-- At an odd point the accumulator is left at the update of what it held by the point's two blocks. -/
theorem sout1_B_eq (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    sout1_B c i arg3 harg3 arg4 harg4 arg5 harg5 arg6 harg6 arg7 harg7 hc0 hc1 x0 x1 x2 xs0 = k1_pay2 x0 xs0 x1 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S1024x1024) blk1_origin]
  simp only [View.readAt_eq_ld, harg3.read_unread, harg4.read_unread, harg7.read_unread,
    View.ld_unit_zero (S := S1024x2048) blk1_origin, View.ld_unit_zero (S := S1024x1024) blk1_origin]

/-- At an odd point the output block is left at the accumulator's new contents plus the bias row. -/
theorem out1_B_3_eq (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .f32) (x1 : Vec F S1024x2048 .bf16) (x2 : Vec F S1x1024 .f32) (xs0 : Vec F S1024x1024 .f32) :
    out1_B_3 c i arg3 harg3 arg4 harg4 arg5 harg5 arg6 harg6 arg7 harg7 hc0 hc1 x0 x1 x2 xs0 = k1_pay3 (k1_pay2 x0 xs0 x1) x2 := by
  unfold out1_B_3
  rw [View.read_writes_eq_canon _ _ _ (cover1_B_3 c i arg3 harg3 arg4 harg4 arg5 harg5 arg6 harg6 arg7 harg7 hc0 hc1 x0 x1 x2 xs0)]
  unfold kernelRun1_B
  dsimp only
  sl_unfold_words
  rw [View.canon_unit_zero (S := S1024x1024) blk1_origin]
  simp only [View.readAt_eq_ld, harg3.read_unread, harg4.read_unread, harg5.read_unread, harg7.read_unread,
    View.ld_unit_zero (S := S1024x2048) blk1_origin, View.ld_unit_zero (S := S1024x1024) blk1_origin,
    View.ld_unit_zero (S := S1x1024) blk1_origin, View.readCov_unit_zero (S := S1024x1024) _ blk1_origin]

/-! ## The payloads read at an index, over the extended reals -/

/-- The zero splat is the extended real zero everywhere. -/
theorem k1_pay1_apply (j : S1024x1024.Idx) : (k1_pay1 (F := Ideal)) j = (0 : EReal) := by
  unfold k1_pay1
  refine (congrFun (shapeCast_self _ _) j).trans ?_
  exact Ideal.ofBits_zero_f32

/-- The block product's left operand index: the output's row on axis 0, -/
theorem k1_mm_lhs_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- the contraction position on axis 1. -/
theorem k1_mm_lhs_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- The right operand index: the output's column on axis 0, -/
theorem k1_mm_rhs_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- the contraction position on axis 1. -/
theorem k1_mm_rhs_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The block product into the zero splat at `(p, q)`: row `p` of the left block against row `q` of the right one. -/
theorem k1_mm_apply (l r : FVec Ideal S1024x2048 .bf16) (p q : Fin 1024) :
    matmul dot_S1024x2048_S1024x2048_S1024x1024_1_1_0_0_n_n none l r (constant (F := Ideal) S1024x1024 .f32 0x00000000#32) (ix2 p q)
      = ∑ k : Fin 2048, l (ix2 p k) * r (ix2 q k) := by
  refine (Ideal.matmul_constant_zero_apply dot_S1024x2048_S1024x2048_S1024x1024_1_1_0_0_n_n none l r (ix2 p q)).trans ?_
  rw [← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact k1_mm_lhs_0 _ _
    | ⟨1, _⟩ => exact (k1_mm_lhs_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact k1_mm_rhs_0 _ _
    | ⟨1, _⟩ => exact (k1_mm_rhs_1 _ _).trans hk)
  rw [el, er]

/-- The update: what the accumulator held plus the products of row `p` of the left block with row `q` of the right one
    (the change of float format and the casts to the same shape are the identity). -/
theorem k1_pay2_apply (v3 : Vec Ideal S1024x2048 .f32) (v5 : Vec Ideal S1024x1024 .f32) (v6 : Vec Ideal S1024x2048 .bf16) (p q : Fin 1024) :
    k1_pay2 v3 v5 v6 (ix2 p q) = v5 (ix2 p q) + ∑ k : Fin 2048, v3 (ix2 p k) * v6 (ix2 q k) := by
  unfold k1_pay2
  refine (congrFun (shapeCast_self _ _) (ix2 p q)).trans ?_
  refine (addf_apply _ _ _).trans ?_
  refine congrArg (v5 (ix2 p q) + ·) ?_
  refine (k1_mm_apply _ _ p q).trans ?_
  refine Finset.sum_congr rfl fun k _ => ?_
  exact congrArg (v3 (ix2 p k) * ·) (congrFun (shapeCast_self v6 _) (ix2 q k))

/-- The epilogue: the accumulator plus the bias row's entry of the column. -/
theorem k1_pay3_apply (v16 : Vec Ideal S1024x1024 .f32) (v17 : Vec Ideal S1x1024 .f32) (p q : Fin 1024) :
    k1_pay3 v16 v17 (ix2 p q) = v16 (ix2 p q) + v17 (ix2 (0 : Fin 1) q) := by
  unfold k1_pay3
  refine (addf_apply _ _ _).trans ?_
  refine congrArg (v16 (ix2 p q) + ·) ?_
  refine (broadcastTo_1b_ab_apply _ _ p q).trans ?_
  exact congrFun (shapeCast_self v17 _) (ix2 (0 : Fin 1) q)

/-! ## What each case leaves, read at an index -/

/-- After an even point the accumulator holds zero plus the first half's products. -/
theorem acc_even_apply (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec Ideal S1024x2048 .f32) (x1 : Vec Ideal S1024x2048 .bf16) (x2 : Vec Ideal S1x1024 .f32) (p q : Fin 1024) :
    sout1_A (F := Ideal) c i arg3 harg3 arg4 harg4 arg5 harg5 arg6 harg6 arg7 harg7 hc0 hc1 x0 x1 x2 (ix2 p q)
      = (0 : EReal) + ∑ k : Fin 2048, x0 (ix2 p k) * x1 (ix2 q k) := by
  refine (congrFun (sout1_A_eq (F := Ideal) c i arg3 harg3 arg4 harg4 arg5 harg5 arg6 harg6 arg7 harg7 hc0 hc1 x0 x1 x2) (ix2 p q)).trans ?_
  refine (k1_pay2_apply x0 (k1_pay1 (F := Ideal)) x1 p q).trans ?_
  exact congrArg (· + ∑ k : Fin 2048, x0 (ix2 p k) * x1 (ix2 q k)) (k1_pay1_apply (ix2 p q))

/-- After an odd point the accumulator holds what it held plus the second half's products. -/
theorem acc_odd_apply (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec Ideal S1024x2048 .f32) (x1 : Vec Ideal S1024x2048 .bf16) (x2 : Vec Ideal S1x1024 .f32) (xs0 : Vec Ideal S1024x1024 .f32) (p q : Fin 1024) :
    sout1_B (F := Ideal) c i arg3 harg3 arg4 harg4 arg5 harg5 arg6 harg6 arg7 harg7 hc0 hc1 x0 x1 x2 xs0 (ix2 p q)
      = xs0 (ix2 p q) + ∑ k : Fin 2048, x0 (ix2 p k) * x1 (ix2 q k) := by
  refine (congrFun (sout1_B_eq (F := Ideal) c i arg3 harg3 arg4 harg4 arg5 harg5 arg6 harg6 arg7 harg7 hc0 hc1 x0 x1 x2 xs0) (ix2 p q)).trans ?_
  exact k1_pay2_apply x0 xs0 x1 p q

/-- After an odd point the output block holds the accumulator's new contents plus the bias row. -/
theorem out_odd_apply (c : Dev nD) (i : grid1.Coords) (arg3 : Memref sig .tc .vmem S1024x2048 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec Ideal S1024x2048 .f32) (x1 : Vec Ideal S1024x2048 .bf16) (x2 : Vec Ideal S1x1024 .f32) (xs0 : Vec Ideal S1024x1024 .f32) (p q : Fin 1024) :
    out1_B_3 (F := Ideal) c i arg3 harg3 arg4 harg4 arg5 harg5 arg6 harg6 arg7 harg7 hc0 hc1 x0 x1 x2 xs0 (ix2 p q)
      = (xs0 (ix2 p q) + ∑ k : Fin 2048, x0 (ix2 p k) * x1 (ix2 q k)) + x2 (ix2 (0 : Fin 1) q) := by
  refine (congrFun (out1_B_3_eq (F := Ideal) c i arg3 harg3 arg4 harg4 arg5 harg5 arg6 harg6 arg7 harg7 hc0 hc1 x0 x1 x2 xs0) (ix2 p q)).trans ?_
  refine (k1_pay3_apply (k1_pay2 x0 xs0 x1) x2 p q).trans ?_
  exact congrArg (· + x2 (ix2 (0 : Fin 1) q)) (k1_pay2_apply x0 xs0 x1 p q)

end Cert.KernelIdeal.Val

end
-- ==== Proof.KI.Val1.lean ====
/-
  The second kernel region (the blocked product with the bias epilogue), from blocks to the array, over the extended reals.
  The grid is 8 × 4 × 2 with the contraction axis innermost: point t has coordinates (t / 8, (t / 2) % 4, t % 2).
  Row n and column o of the output lie in block (n / 1024, o / 1024), which is written back at the odd point
  t = ((n / 1024) · 4 + o / 1024) · 2 + 1. There the accumulator holds what the even point t − 1 left, the zero plus
  the products over the first 2048 columns of x and w, plus the products over the last 2048 columns; the epilogue adds
  entry o of the bias row. So the output array ends, entry by entry, at
     ((0 + ∑ k < 2048, x (n, k) · w (o, k)) + ∑ k < 2048, x (n, 2048 + k) · w (o, 2048 + k)) + b (0, o).
-/
import proofs.«156597_j90048284328682_1_alg».proof.Proof.KI.R1
import proofs.«156597_j90048284328682_1_alg».proof.Proof.KI.Val1Pieces
import proofs.«156597_j90048284328682_1_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The arrays and the blocks, by their literal types -/

/-- The left operand x, 8192 × 4096. -/
abbrev xarr (c : Dev nD) : Vec Ideal S8192x4096 .f32 := V c main_arg0
/-- The weight w, 4096 × 4096 (output feature, input feature). -/
abbrev warr (c : Dev nD) : Vec Ideal S4096x4096 .bf16 := V c main_v0
/-- The bias row, 1 × 4096. -/
abbrev barr (c : Dev nD) : Vec Ideal S1x4096 .f32 := V c main_v1

/-- The 1024 × 2048 block of x at point t. -/
abbrev xblk (c : Dev nD) (t : Fin cfg1.N) : Vec Ideal S1024x2048 .f32 := iblk1 V c 0 t
/-- The 1024 × 2048 block of w at point t. -/
abbrev wblk (c : Dev nD) (t : Fin cfg1.N) : Vec Ideal S1024x2048 .bf16 := iblk1 V c 1 t
/-- The 1 × 1024 block of the bias row at point t. -/
abbrev bblk (c : Dev nD) (t : Fin cfg1.N) : Vec Ideal S1x1024 .f32 := iblk1 V c 2 t

/-! ## The index maps over the grid -/

/-- The block indices at point t: x's block is (t / 8, t % 2), w's is ((t / 2) % 4, t % 2), the bias row's is
    (0, (t / 2) % 4) and the output's is (t / 8, (t / 2) % 4). -/
theorem block_indices : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = 0 ∧ win1_2.index t (1 : Fin 2) = t.val / 2 % 4
    ∧ win1_3.index t (0 : Fin 2) = t.val / 8 ∧ win1_3.index t (1 : Fin 2) = t.val / 2 % 4 :=
  (by decide +kernel : ∀ t : Fin grid1.N, _)

/-! ## Reading a block off its array -/

/-- Entry (p, k) of x's block at t is entry (block row · 1024 + p, block column · 2048 + k) of x. -/
theorem xblk_apply (c : Dev nD) (t : Fin cfg1.N) (p : Fin 1024) (k : Fin 2048) (n : Fin 8192) (i : Fin 4096)
    (hn : n.val = win1_0.index t (0 : Fin 2) * 1024 + p.val) (hi : i.val = win1_0.index t (1 : Fin 2) * 2048 + k.val) :
    xblk V c t (ix2 p k) = xarr V c (ix2 n i) := by
  show V c main_arg0 (((cfg1.win 0).blk t).view.emb (ix2 p k)) = V c main_arg0 (ix2 n i)
  congr 1
  funext a
  apply Fin.ext
  match a with
  | ⟨0, _⟩ => show win1_0.index t (0 : Fin 2) * 1024 + 1 * p.val = n.val; omega
  | ⟨1, _⟩ => show win1_0.index t (1 : Fin 2) * 2048 + 1 * k.val = i.val; omega

/-- Entry (q, k) of w's block at t is entry (block row · 1024 + q, block column · 2048 + k) of w. -/
theorem wblk_apply (c : Dev nD) (t : Fin cfg1.N) (q : Fin 1024) (k : Fin 2048) (o : Fin 4096) (i : Fin 4096)
    (ho : o.val = win1_1.index t (0 : Fin 2) * 1024 + q.val) (hi : i.val = win1_1.index t (1 : Fin 2) * 2048 + k.val) :
    wblk V c t (ix2 q k) = warr V c (ix2 o i) := by
  show V c main_v0 (((cfg1.win 1).blk t).view.emb (ix2 q k)) = V c main_v0 (ix2 o i)
  congr 1
  funext a
  apply Fin.ext
  match a with
  | ⟨0, _⟩ => show win1_1.index t (0 : Fin 2) * 1024 + 1 * q.val = o.val; omega
  | ⟨1, _⟩ => show win1_1.index t (1 : Fin 2) * 2048 + 1 * k.val = i.val; omega

/-- Entry (0, q) of the bias row's block at t is entry (0, block column · 1024 + q) of the bias row. -/
theorem bblk_apply (c : Dev nD) (t : Fin cfg1.N) (q : Fin 1024) (o : Fin 4096)
    (hz : win1_2.index t (0 : Fin 2) = 0) (ho : o.val = win1_2.index t (1 : Fin 2) * 1024 + q.val) :
    bblk V c t (ix2 (0 : Fin 1) q) = barr V c (ix2 (0 : Fin 1) o) := by
  show V c main_v1 (((cfg1.win 2).blk t).view.emb (ix2 (0 : Fin 1) q)) = V c main_v1 (ix2 (0 : Fin 1) o)
  congr 1
  funext a
  apply Fin.ext
  match a with
  | ⟨0, _⟩ => show win1_2.index t (0 : Fin 2) * 1 + 1 * 0 = 0; omega
  | ⟨1, _⟩ => show win1_2.index t (1 : Fin 2) * 1024 + 1 * q.val = o.val; omega

/-! ## Point by point -/

/-- After an even point the accumulator holds the zero plus the products of the point's blocks. -/
theorem acc_even (c : Dev nD) (t : Fin cfg1.N) (h0 : t.val % 2 = 0) (p q : Fin 1024) :
    (outsAt1 V c t.val t.isLt).2 (ix2 p q)
      = (0 : EReal) + ∑ k : Fin 2048, xblk V c t (ix2 p k) * wblk V c t (ix2 q k) := by
  have h1 : ¬t.val % 2 = 1 := by omega
  rw [outsAt1_A V c t h0 h1]
  dsimp only
  exact acc_even_apply c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (xblk V c t) (wblk V c t) (bblk V c t) p q

/-- After an odd point the output block holds what the point before left in the accumulator, plus the products of the
    point's blocks, plus the bias block's entry of the column. -/
theorem out_odd (c : Dev nD) (t : Fin cfg1.N) (h1 : t.val % 2 = 1) (p q : Fin 1024) :
    (outsAt1 V c t.val t.isLt).1 (ix2 p q)
      = ((outsAt1 V c (t.val - 1) (Nat.lt_of_le_of_lt (Nat.sub_le _ _) t.isLt)).2 (ix2 p q)
          + ∑ k : Fin 2048, xblk V c t (ix2 p k) * wblk V c t (ix2 q k))
        + bblk V c t (ix2 (0 : Fin 1) q) := by
  have h0 : ¬t.val % 2 = 0 := by omega
  rw [outsAt1_B V c t h0 h1]
  dsimp only
  exact out_odd_apply c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2 p q

/-- So after an odd point the output block holds, at (p, q), the zero plus the products of the blocks of the even point
    before, plus the products of the point's own blocks, plus the bias block's entry of the column. -/
theorem out_odd_chain (c : Dev nD) (t : Fin cfg1.N) (h1 : t.val % 2 = 1) (p q : Fin 1024) :
    (outsAt1 V c t.val t.isLt).1 (ix2 p q)
      = (((0 : EReal) + ∑ k : Fin 2048, xblk V c ⟨t.val - 1, Nat.lt_of_le_of_lt (Nat.sub_le _ _) t.isLt⟩ (ix2 p k)
              * wblk V c ⟨t.val - 1, Nat.lt_of_le_of_lt (Nat.sub_le _ _) t.isLt⟩ (ix2 q k))
          + ∑ k : Fin 2048, xblk V c t (ix2 p k) * wblk V c t (ix2 q k))
        + bblk V c t (ix2 (0 : Fin 1) q) := by
  rw [out_odd V c t h1 p q]
  have e := acc_even V c ⟨t.val - 1, Nat.lt_of_le_of_lt (Nat.sub_le _ _) t.isLt⟩ (by show (t.val - 1) % 2 = 0; omega) p q
  rw [← e]

/-! ## What an odd point writes back -/

/-- The output block written back at an odd point t is block t of the whole result: its entry (p, q) is the result at
    row (t / 8) · 1024 + p and column ((t / 2) % 4) · 1024 + q, the first half of the contraction read off the blocks of
    the point before and the second half off the point's own. -/
theorem flushed_eq (c : Dev nD) (t : Fin cfg1.N) (hf : (cfg1.win 3).flush t = true) :
    (dat1 V c).flushed 3 t
      = ((cfg1.win 3).blk t).view.read (Elt Ideal) (Cert.Spec.GK (xarr V c) (warr V c) (barr V c)) := by
  have hN : cfg1.N = 64 := N_1
  have h1 : t.val % 2 = 1 := (flush1_3 t).mp hf
  have htl : t.val < 64 := lt_of_lt_of_eq t.isLt hN
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  obtain ⟨a0, a1, b0, b1, z0, z1, o0, o1⟩ := block_indices t
  obtain ⟨a0', a1', b0', b1', -, -, -, -⟩ := block_indices ⟨t.val - 1, Nat.lt_of_le_of_lt (Nat.sub_le _ _) t.isLt⟩
  have hp : p.val < 1024 := p.isLt
  have hq : q.val < 1024 := q.isLt
  -- the row and the column of the array under (p, q)
  obtain ⟨n, hn⟩ : ∃ n : Fin 8192, n.val = t.val / 8 * 1024 + p.val := ⟨⟨t.val / 8 * 1024 + p.val, by omega⟩, rfl⟩
  obtain ⟨o, ho⟩ : ∃ o : Fin 4096, o.val = t.val / 2 % 4 * 1024 + q.val := ⟨⟨t.val / 2 % 4 * 1024 + q.val, by omega⟩, rfl⟩
  have hemb : ((cfg1.win 3).blk t).view.emb (ix2 p q) = (ix2 n o : S8192x4096.Idx) := by
    funext a
    apply Fin.ext
    match a with
    | ⟨0, _⟩ => show win1_3.index t (0 : Fin 2) * 1024 + 1 * p.val = n.val; omega
    | ⟨1, _⟩ => show win1_3.index t (1 : Fin 2) * 1024 + 1 * q.val = o.val; omega
  rw [View.read_apply, hemb]
  show (outsAt1 V c t.val t.isLt).1 (ix2 p q) = Cert.Spec.resK (xarr V c) (warr V c) (barr V c) n o
  rw [out_odd_chain V c t h1 p q]
  unfold Cert.Spec.resK
  have hlo : ∀ k : Fin 2048, xblk V c ⟨t.val - 1, Nat.lt_of_le_of_lt (Nat.sub_le _ _) t.isLt⟩ (ix2 p k)
        * wblk V c ⟨t.val - 1, Nat.lt_of_le_of_lt (Nat.sub_le _ _) t.isLt⟩ (ix2 q k)
      = xarr V c (ix2 n (Cert.Spec.lo k)) * warr V c (ix2 o (Cert.Spec.lo k)) := fun k => by
    have hk : k.val < 2048 := k.isLt
    rw [xblk_apply V c _ p k n (Cert.Spec.lo k) (by rw [a0']; show n.val = (t.val - 1) / 8 * 1024 + p.val; omega)
        (by rw [a1']; show k.val = (t.val - 1) % 2 * 2048 + k.val; omega),
      wblk_apply V c _ q k o (Cert.Spec.lo k) (by rw [b0']; show o.val = (t.val - 1) / 2 % 4 * 1024 + q.val; omega)
        (by rw [b1']; show k.val = (t.val - 1) % 2 * 2048 + k.val; omega)]
  have hhi : ∀ k : Fin 2048, xblk V c t (ix2 p k) * wblk V c t (ix2 q k)
      = xarr V c (ix2 n (Cert.Spec.hi k)) * warr V c (ix2 o (Cert.Spec.hi k)) := fun k => by
    have hk : k.val < 2048 := k.isLt
    rw [xblk_apply V c t p k n (Cert.Spec.hi k) (by rw [a0]; exact hn)
        (by rw [a1]; show 2048 + k.val = t.val % 2 * 2048 + k.val; omega),
      wblk_apply V c t q k o (Cert.Spec.hi k) (by rw [b0]; exact ho)
        (by rw [b1]; show 2048 + k.val = t.val % 2 * 2048 + k.val; omega)]
  rw [Finset.sum_congr rfl (fun k _ => hlo k), Finset.sum_congr rfl (fun k _ => hhi k),
    bblk_apply V c t q o z0 (by rw [z1]; exact ho)]

/-! ## The odd points' blocks cover the array -/

/-- An index of the output array is in point t's block iff each coordinate is in the block's range on its axis. -/
theorem mem_oblk (t : Fin cfg1.N) (i : S8192x4096.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v2).slice (win1_3.rect t)).set ↔ _
  rw [View.set_slice_whole, Rect.mem_set_unit]
  exact Iff.rfl

/-- Row n and column o lie in the block written back at the odd point ((n / 1024) · 4 + o / 1024) · 2 + 1. -/
theorem covered (i : S8192x4096.Idx) :
    ∃ t : Fin cfg1.N, (cfg1.win 3).flush t = true ∧ i ∈ ((cfg1.win 3).blk t).view.set := by
  have hN : cfg1.N = 64 := N_1
  have hi0 : (i 0).val < 8192 := (i 0).isLt
  have hi1 : (i 1).val < 4096 := (i 1).isLt
  obtain ⟨t, ht⟩ : ∃ t : Fin cfg1.N, t.val = ((i 0).val / 1024 * 4 + (i 1).val / 1024) * 2 + 1 :=
    ⟨⟨((i 0).val / 1024 * 4 + (i 1).val / 1024) * 2 + 1, by omega⟩, rfl⟩
  obtain ⟨-, -, -, -, -, -, o0, o1⟩ := block_indices t
  refine ⟨t, (flush1_3 t).mpr (by omega), ?_⟩
  rw [mem_oblk]
  intro a
  match a with
  | ⟨0, _⟩ =>
    show win1_3.index t (0 : Fin 2) * 1024 ≤ (i 0).val ∧ (i 0).val < win1_3.index t (0 : Fin 2) * 1024 + 1024
    rw [o0]; omega
  | ⟨1, _⟩ =>
    show win1_3.index t (1 : Fin 2) * 1024 ≤ (i 1).val ∧ (i 1).val < win1_3.index t (1 : Fin 2) * 1024 + 1024
    rw [o1]; omega

/-! ## The array -/

/-- After the region the output array holds the result, entry by entry. -/
theorem arr1_final (c : Dev nD) :
    (dat1 V c).arrAt 3 cfg1.N = Cert.Spec.GK (V c main_arg0) (V c main_v0) (V c main_v1) :=
  (dat1 V c).arrAt_eq_of_cover 3 (Cert.Spec.GK (xarr V c) (warr V c) (barr V c)) (fun t ht => flushed_eq V c t ht) covered

end Cert.KernelIdeal.Val

end
-- ==== Proof.KI.Top.lean ====
/-
  What the program leaves in its result array, as one function of the argument arrays: the second kernel region's
  array (the blocked product over the weight array the first region left, plus the reshaped bias row) is the
  specification's  (∑ i, x (n, i) · (float (wb (o, i)) + tag (o, i))) + bias (o).
-/
import proofs.«156597_j90048284328682_1_alg».proof.Proof.KI.Run
import proofs.«156597_j90048284328682_1_alg».proof.Proof.Spec
import proofs.«156597_j90048284328682_1_alg».proof.Proof.Algebra
import proofs.«156597_j90048284328682_1_alg».proof.Proof.KI.Val0
import proofs.«156597_j90048284328682_1_alg».proof.Proof.KI.Val1
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- The bias row the second region is entered with is the bias, reshaped to one row. -/
theorem bias_row (c : Dev nD) (o : Fin 4096) :
    Vr2 m c main_v1 (ix2 (0 : Fin 1) o) = m ((c : Thread nD τ).loc main_arg3) (ix1 o) := by
  have e : (Vr2 m c main_v1 : S1x4096.Idx → EReal) = shapeCast S1x4096 (W1 m c (Proc.devRef .tc main_arg3)) shapeCasts_S4096_S1x4096 := by
    show StableHlo.after hostOps1 (W1 m c) (Proc.devRef .tc main_v1) = _
    after_results; rfl
  rw [e, shapeCast_a_1a_apply, W1_of_ne m c main_arg3 (by decide)]

/-- What the program leaves in the result array, as one function of the argument arrays: the second region's array
    over the weight array the first region left and the reshaped bias, which is the specification's result. -/
theorem kernel_value (c : Dev nD) :
    (dat1 (Vr2 m) c).arrAt 3 cfg1.N
      = Cert.Spec.G (m ((c : Thread nD τ).loc main_arg0)) (m ((c : Thread nD τ).loc main_arg1)) (m ((c : Thread nD τ).loc main_arg2)) (m ((c : Thread nD τ).loc main_arg3)) := by
  rw [arr1_final (Vr2 m) c, Vr2_main_arg0 m c, Vr2_main_v0 m c, Cert.KernelIdeal.ValW.arr0_final (Vr0 m) c]
  exact Cert.Spec.GK_eq _ _ _ _ _ (bias_row m c)

end Cert.KernelIdeal.Val

end
-- ==== Proof.RefSpec.lean ====
/-
  The reference program computes the specified array.
  Read one operation at a time, the reference's result at row n and column o is
    (∑ k < 4096, x (n, k) · (float (wb (o, k)) + tag (o, k))) + bias (o):
  the contraction pairs column k of the left operand's row n with column k of the effective weight's row o,
  and the two broadcasts carry the bias at o to every row. Each index function the operations read through
  is the pair (or the single coordinate) it names, coordinate by coordinate. On the extended reals the float
  addition is +, so this is the specification's entry.
-/
import proofs.«156597_j90048284328682_1_alg».proof.Proof.Gen.ReferenceIdeal.Read
import proofs.«156597_j90048284328682_1_alg».proof.Proof.Spec

noncomputable section

open scoped BigOperators

namespace Cert.RefSpec

open Idealize.ShloMosaic Idealize.ShloMosaic.ValueIdx Cert.ReferenceIdeal Cert.ReferenceIdeal.Read

/-- The left operand's index in the contraction is (n, k). -/
theorem lidx_eq (n : Fin 8192) (o : Fin 4096) (k : Fin 4096) :
    lidx_main_v2 (ix2 n o) k = ix2 n k := by
  funext a
  match a with
  | ⟨0, _⟩ => rfl
  | ⟨1, _⟩ => rfl

/-- The right operand's index in the contraction is (o, k). -/
theorem ridx_eq (n : Fin 8192) (o : Fin 4096) (k : Fin 4096) :
    ridx_main_v2 (ix2 n o) k = ix2 o k := by
  funext a
  match a with
  | ⟨0, _⟩ => rfl
  | ⟨1, _⟩ => rfl

/-- The two broadcasts read the bias at the column o. -/
theorem bias_idx_eq (n : Fin 8192) (o : Fin 4096) :
    idx_main_v3 (idx_main_v4 (ix2 n o)) = ix1 o := by
  funext a
  match a with
  | ⟨0, _⟩ => rfl

theorem ref_eq (x0 : (⟨Cert.ReferenceIdeal.S8192x4096, .f32⟩ : BufTy).Contents (Elt Ideal)) (x1 : (⟨Cert.ReferenceIdeal.S4096x4096, .i32⟩ : BufTy).Contents (Elt Ideal))
    (x2 : (⟨Cert.ReferenceIdeal.S4096x4096, .f32⟩ : BufTy).Contents (Elt Ideal)) (x3 : (⟨Cert.ReferenceIdeal.S4096, .f32⟩ : BufTy).Contents (Elt Ideal)) :
    Cert.ReferenceIdeal.Read.val_main_v5 (F := Ideal) x0 x1 x2 x3 = Cert.Spec.G x0 x1 x2 x3 := by
  funext i
  obtain ⟨n, o, rfl⟩ : ∃ (n : Fin 8192) (o : Fin 4096), i = ix2 n o := ⟨i 0, i 1, eq_ix2 i⟩
  rw [val_main_v5_apply, val_main_v2_apply, val_main_v4_apply, val_main_v3_apply, bias_idx_eq]
  simp only [lidx_eq, ridx_eq, val_main_v1_apply, val_main_v0_apply, Ideal.addf_def]
  rfl

end Cert.RefSpec

end
-- ==== Proof.lean ====
/-
  The certificate of the ternary-weight linear layer with a tag buffer:  out = x · (float (wb) + tag)ᵀ + bias.
  The kernel is two regions — the first forms the effective weight  float (wb) + tag  block by block (its rounding
  to bf16 is the identity on the extended reals), the second is a product blocked 8 × 4 over the output with the
  contraction split in two halves accumulated in a scratch buffer, the bias row added when the second half is in —
  and the reference is one dot_general plus the broadcast bias.
  Frames: each program runs to the end, faults nowhere and leaves its arguments unchanged; for the two kernel
  programs this is the run of the two regions around the host reshape with every unscoped buffer's contents named at
  each boundary, for the reference its run with the result dropped.
  The idealization rewrote nothing, so `preserves` is trivial.
  Equal results: the kernel's result array is, entry by entry,  ((0 + ∑ first half) + ∑ second half) + bias,  the
  reference's  (∑ over all 4096) + bias;  on the extended reals addition is commutative and associative, so the two
  are the same number, with no finiteness needed.
-/
import proofs.«156597_j90048284328682_1_alg».proof.Defs
import proofs.«156597_j90048284328682_1_alg».proof.Proof.Gen.Kernel
import proofs.«156597_j90048284328682_1_alg».proof.Proof.Gen.KernelIdeal
import proofs.«156597_j90048284328682_1_alg».proof.Proof.Gen.ReferenceIdeal
import proofs.«156597_j90048284328682_1_alg».proof.Proof.Gen.ReferenceIdeal.Run
import proofs.«156597_j90048284328682_1_alg».proof.Proof.Gen.ReferenceIdeal.Read
import proofs.«156597_j90048284328682_1_alg».proof.Proof.Gen.Pre_finite_inputs
import proofs.«156597_j90048284328682_1_alg».proof.Proof.K.Run
import proofs.«156597_j90048284328682_1_alg».proof.Proof.KI.Run
import proofs.«156597_j90048284328682_1_alg».proof.Proof.KI.Top
import proofs.«156597_j90048284328682_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's array of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.Val.kernel_value m c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.RefSpec.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
